-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S800000 : S_.BroadcastsInDim S800000 (![] : Fin 0 → Fin S800000.rank)
  reducesTo_S800000_S_d0 : S800000.ReducesTo [0] S_

variable [Facts]

def fn_part1 {F : FTy → Type} [FloatOps F] (main_arg1 : IVec S800000 32) (main_arg6 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S800000 32 := broadcastInDim S800000 ![] bcast_S_S800000 main_c_8
  let main_v25 : IVec S800000 1 := cmpi .sge main_arg1 main_v24
  let main_c_9 : IVec S_ 32 := constantI S_ 32 50000#32
  let main_v26 : IVec S800000 32 := broadcastInDim S800000 ![] bcast_S_S800000 main_c_9
  let main_v27 : IVec S800000 1 := cmpi .slt main_arg1 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  main_v30

def fn {F : FTy → Type} [FloatOps F] (main_arg0 : FVec F S50000x128 .f32) (main_arg1 : IVec S800000 32) (main_arg2 : IVec S800000 32) (main_arg3 : FVec F S128x128 .f32) (main_arg4 : FVec F S128 .f32) (main_arg5 : FVec F S256x128 .f32) (main_arg6 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg5
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg1 main_arg6 main_v13 main_v16
-- ==== Kernel.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S5000x128 : Shape := ⟨2, ![5000, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S50000x256 : Shape := ⟨2, ![50000, 256]⟩
abbrev S5000x256 : Shape := ⟨2, ![5000, 256]⟩

abbrev nBuf : Space → Nat
  | .hbm => 67
  | .vmem => 12
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S1x128, .f32⟩
  | .hbm, ⟨8, _⟩ => ⟨S50000x128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S1, .i32⟩
  | .hbm, ⟨18, _⟩ => ⟨S_, .i32⟩
  | .hbm, ⟨19, _⟩ => ⟨S800000x1, .i32⟩
  | .hbm, ⟨20, _⟩ => ⟨S800000x1, .i1⟩
  | .hbm, ⟨21, _⟩ => ⟨S1x1, .i32⟩
  | .hbm, ⟨22, _⟩ => ⟨S800000x1, .i32⟩
  | .hbm, ⟨23, _⟩ => ⟨S800000x1, .i1⟩
  | .hbm, ⟨24, _⟩ => ⟨S800000x1, .i1⟩
  | .hbm, ⟨25, _⟩ => ⟨S_, .i1⟩
  | .hbm, ⟨26, _⟩ => ⟨S800000, .i1⟩
  | .hbm, ⟨27, _⟩ => ⟨S800000x128, .f32⟩
  | .hbm, ⟨28, _⟩ => ⟨S800000x128, .i1⟩
  | .hbm, ⟨29, _⟩ => ⟨S_, .f32⟩
  | .hbm, ⟨30, _⟩ => ⟨S800000x128, .f32⟩
  | .hbm, ⟨31, _⟩ => ⟨S800000x128, .f32⟩
  | .hbm, ⟨32, _⟩ => ⟨S_, .f32⟩
  | .hbm, ⟨33, _⟩ => ⟨S50000x128, .f32⟩
  | .hbm, ⟨34, _⟩ => ⟨S800000x1, .i32⟩
  | .hbm, ⟨35, _⟩ => ⟨S50000x128, .f32⟩
  | .hbm, ⟨36, _⟩ => ⟨S50000x256, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S800000, .i32⟩
  | .hbm, ⟨41, _⟩ => ⟨S800000, .i1⟩
  | .hbm, ⟨42, _⟩ => ⟨S_, .i32⟩
  | .hbm, ⟨43, _⟩ => ⟨S800000, .i32⟩
  | .hbm, ⟨44, _⟩ => ⟨S800000, .i32⟩
  | .hbm, ⟨45, _⟩ => ⟨S800000, .i32⟩
  | .hbm, ⟨46, _⟩ => ⟨S800000x1, .i32⟩
  | .hbm, ⟨47, _⟩ => ⟨S1, .i32⟩
  | .hbm, ⟨48, _⟩ => ⟨S_, .i32⟩
  | .hbm, ⟨49, _⟩ => ⟨S800000x1, .i32⟩
  | .hbm, ⟨50, _⟩ => ⟨S800000x1, .i1⟩
  | .hbm, ⟨51, _⟩ => ⟨S1x1, .i32⟩
  | .hbm, ⟨52, _⟩ => ⟨S800000x1, .i32⟩
  | .hbm, ⟨53, _⟩ => ⟨S800000x1, .i1⟩
  | .hbm, ⟨54, _⟩ => ⟨S800000x1, .i1⟩
  | .hbm, ⟨55, _⟩ => ⟨S_, .i1⟩
  | .hbm, ⟨56, _⟩ => ⟨S800000, .i1⟩
  | .hbm, ⟨57, _⟩ => ⟨S800000x128, .f32⟩
  | .hbm, ⟨58, _⟩ => ⟨S800000x128, .i1⟩
  | .hbm, ⟨59, _⟩ => ⟨S_, .f32⟩
  | .hbm, ⟨60, _⟩ => ⟨S800000x128, .f32⟩
  | .hbm, ⟨61, _⟩ => ⟨S800000x128, .f32⟩
  | .hbm, ⟨62, _⟩ => ⟨S_, .f32⟩
  | .hbm, ⟨63, _⟩ => ⟨S50000x128, .f32⟩
  | .hbm, ⟨64, _⟩ => ⟨S800000x1, .i32⟩
  | .hbm, ⟨65, _⟩ => ⟨S50000x128, .f32⟩
  | .hbm, ⟨66, _⟩ => ⟨S50000x256, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x256, .f32⟩
  | .local _ .vmem, ⟨7, _⟩ => ⟨S5000x256, .f32⟩
  | .local _ .vmem, ⟨8, _⟩ => ⟨S256x128, .f32⟩
  | .local _ .vmem, ⟨9, _⟩ => ⟨S1x128, .f32⟩
  | .local _ .vmem, ⟨10, _⟩ => ⟨S5000x128, .f32⟩
  | .local _ .vmem, ⟨11, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v2 : Ref sig .tc := ⟨.hbm, 31, rfl⟩
abbrev main_cst : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v9 : Ref sig .tc := ⟨.hbm, 61, rfl⟩
abbrev main_cst_0 : Ref sig .tc := ⟨.hbm, 62, rfl⟩
abbrev main_v10 : Ref sig .tc := ⟨.hbm, 63, rfl⟩
abbrev main_v11 : Ref sig .tc := ⟨.hbm, 64, rfl⟩
abbrev main_v12 : Ref sig .tc := ⟨.hbm, 65, rfl⟩
abbrev main_v13 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  inb_S5000x256_S5000x256_0_0 : ∀ a, (![0, 0] : Fin 2 → Nat) a + S5000x256.size a ≤ S5000x256.size a
  h_S5000x256 : 0 < S5000x256.numel
  shapeCasts_S5000x256_S5000x256 : S5000x256.ShapeCasts S5000x256
  inb_S256x128_S256x128_0_0 : ∀ a, (![0, 0] : Fin 2 → Nat) a + S256x128.size a ≤ S256x128.size a
  h_S256x128 : 0 < S256x128.numel
  dot_S5000x128_S128x128_S5000x128_1_0_0_1_n_n_wf : DotDims.WF S5000x128 S128x128 S5000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x256_S256x128_S5000x128_1_0_0_1_n_n_wf : DotDims.WF S5000x256 S256x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x256.size a ≤ S50000x256.size a
  hwx1_0 : ∀ i : grid1.Coords, EltTy.bits .f32 = 32 ∨ (Rect.block (s := S50000x256) S5000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S50000x128.size a
  hwx1_3 : ∀ i : grid1.Coords, EltTy.bits .f32 = 32 ∨ (Rect.block (s := S50000x128) S5000x128.size (cc1_transform_3 i) (hinb1_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S5000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S128 : Shape := ⟨1, ![128]⟩
abbrev S256x128 : Shape := ⟨2, ![256, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000x256 : Shape := ⟨2, ![50000, 256]⟩

abbrev nBuf : Space → Nat
  | .hbm => 43
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S128, .f32⟩
  | .hbm, ⟨5, _⟩ => ⟨S256x128, .f32⟩
  | .hbm, ⟨6, _⟩ => ⟨S128, .f32⟩
  | .hbm, ⟨7, _⟩ => ⟨S50000x128, .f32⟩
  | .hbm, ⟨8, _⟩ => ⟨S1x128, .f32⟩
  | .hbm, ⟨9, _⟩ => ⟨S50000x128, .f32⟩
  | .hbm, ⟨10, _⟩ => ⟨S50000x128, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x128, .f32⟩
  | .hbm, ⟨20, _⟩ => ⟨S_, .f32⟩
  | .hbm, ⟨21, _⟩ => ⟨S50000x128, .f32⟩
  | .hbm, ⟨22, _⟩ => ⟨S800000x1, .i32⟩
  | .hbm, ⟨23, _⟩ => ⟨S50000x128, .f32⟩
  | .hbm, ⟨24, _⟩ => ⟨S50000x256, .f32⟩
  | .hbm, ⟨25, _⟩ => ⟨S50000x128, .f32⟩
  | .hbm, ⟨26, _⟩ => ⟨S1x128, .f32⟩
  | .hbm, ⟨27, _⟩ => ⟨S50000x128, .f32⟩
  | .hbm, ⟨28, _⟩ => ⟨S50000x128, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x128, .f32⟩
  | .hbm, ⟨38, _⟩ => ⟨S_, .f32⟩
  | .hbm, ⟨39, _⟩ => ⟨S50000x128, .f32⟩
  | .hbm, ⟨40, _⟩ => ⟨S800000x1, .i32⟩
  | .hbm, ⟨41, _⟩ => ⟨S50000x128, .f32⟩
  | .hbm, ⟨42, _⟩ => ⟨S50000x256, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  concatenates_S50000x128_S50000x128_S50000x256_d1 : Shape.Concatenates [S50000x128, S50000x128] S50000x256 1
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.Affine.lean ====
/-
  The kernel bodies' arithmetic, read at one index. Each pallas_call computes, on a block of 5000 rows, the affine map
  `o = x · W + b`: a matrix product into a zero accumulator, plus the bias row `b : [1, 128]` broadcast down the rows.
  At the ideal instance the product's element (r, c) is the plain sum over the contracted axis k of `x (r, k) · W (k, c)`
  (a matrix product with a zero accumulator is that sum: there is no rounding and no schedule), and the broadcast bias at
  (r, c) is `b (0, c)`. The two calls differ only in the contracted extent: 128 for the first layer, 256 for the second.
-/
import proofs.«425653_j85366769975686_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Affine

open Cert.KernelIdeal Cert.KernelIdeal.Gen Idealize.ShloMosaic Idealize.ShloMosaic.TcCoe

/-! ## The first layer's block: [5000, 128] · [128, 128] + [1, 128] -/

/-- Row `j 0`, contracted column `k` of the left operand's block. -/
abbrev rowAt0 (j : S5000x128.Idx) (k : Fin 128) : S5000x128.Idx := fun a => match a with
  | ⟨0, _⟩ => ⟨(j 0).val, (j 0).isLt⟩
  | ⟨1, _⟩ => ⟨k.val, k.isLt⟩
/-- Contracted row `k`, column `j 1` of the weights. -/
abbrev colAt0 (j : S5000x128.Idx) (k : Fin 128) : S128x128.Idx := fun a => match a with
  | ⟨0, _⟩ => ⟨k.val, k.isLt⟩
  | ⟨1, _⟩ => ⟨(j 1).val, (j 1).isLt⟩
/-- The bias row's entry above column `j 1`. -/
abbrev biasAt (j : S5000x128.Idx) : S1x128.Idx := fun a => match a with
  | ⟨0, _⟩ => ⟨0, Nat.one_pos⟩
  | ⟨1, _⟩ => ⟨(j 1).val, (j 1).isLt⟩

theorem lhs0_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs0_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
theorem rhs0_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
theorem rhs0_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The product into the zero accumulator, at (r, c): the sum over k of x (r, k) · W (k, c). -/
theorem matmul0_apply (x0 : FVec Ideal S5000x128 .f32) (x1 : FVec Ideal S128x128 .f32) (j : S5000x128.Idx) :
    matmul dot_S5000x128_S128x128_S5000x128_1_0_0_1_n_n (some .fp32) x0 x1 (constant S5000x128 .f32 0x00000000#32) j
      = ∑ k : Fin 128, x0 (rowAt0 j k) * x1 (colAt0 j k) := by
  show FloatOps.matmul dot_S5000x128_S128x128_S5000x128_1_0_0_1_n_n (some .fp32) x0 x1 (constant S5000x128 .f32 0x00000000#32) j = _
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx j ((ValueIdx.contrEquiv1 dot_S5000x128_S128x128_S5000x128_1_0_0_1_n_n 128 rfl rfl).symm k) = rowAt0 j k := funext fun a => Fin.ext (by
    match a with
    | ⟨0, _⟩ => exact lhs0_0 _ _
    | ⟨1, _⟩ => exact (lhs0_1 _ _).trans hk)
  have er : dot_S5000x128_S128x128_S5000x128_1_0_0_1_n_n.rhsIdx j ((ValueIdx.contrEquiv1 dot_S5000x128_S128x128_S5000x128_1_0_0_1_n_n 128 rfl rfl).symm k) = colAt0 j k := funext fun a => Fin.ext (by
    match a with
    | ⟨0, _⟩ => exact (rhs0_0 _ _).trans hk
    | ⟨1, _⟩ => exact rhs0_1 _ _)
  rw [el, er]

/-- The bias row broadcast down the block's rows, at (r, c): the row's entry above column c. -/
theorem bias_apply (x2 : FVec Ideal S1x128 .f32) (j : S5000x128.Idx) :
    broadcastTo S5000x128 (shapeCast S1x128 x2 shapeCasts_S1x128_S1x128) broadcasts_S1x128_S5000x128 j = x2 (biasAt j) := by
  rw [shapeCast_self]
  exact broadcastTo_apply x2 broadcasts_S1x128_S5000x128 j (biasAt j) (fun a => match a with
    | ⟨0, _⟩ => by show 0 = if (1 : Nat) = 1 then 0 else _; rw [if_pos rfl]
    | ⟨1, _⟩ => by show (j 1).val = if (128 : Nat) = 1 then 0 else (j 1).val; rw [if_neg (by decide)])

/-- The first call's stored value at (r, c) of its block. -/
theorem pay0_apply (x0 : FVec Ideal S5000x128 .f32) (x1 : FVec Ideal S128x128 .f32) (x2 : FVec Ideal S1x128 .f32) (j : S5000x128.Idx) :
    k0_pay1 (F := Ideal) x0 x1 x2 j = (∑ k : Fin 128, x0 (rowAt0 j k) * x1 (colAt0 j k)) + x2 (biasAt j) := by
  unfold k0_pay1
  show FloatOps.addf (matmul dot_S5000x128_S128x128_S5000x128_1_0_0_1_n_n (some .fp32) x0 x1 (constant S5000x128 .f32 0x00000000#32) j)
      (broadcastTo S5000x128 (shapeCast S1x128 x2 shapeCasts_S1x128_S1x128) broadcasts_S1x128_S5000x128 j) = _
  rw [matmul0_apply, bias_apply]
  rfl

/-! ## The second layer's block: [5000, 256] · [256, 128] + [1, 128] -/

/-- Row `j 0`, contracted column `k` of the left operand's block. -/
abbrev rowAt1 (j : S5000x128.Idx) (k : Fin 256) : S5000x256.Idx := fun a => match a with
  | ⟨0, _⟩ => ⟨(j 0).val, (j 0).isLt⟩
  | ⟨1, _⟩ => ⟨k.val, k.isLt⟩
/-- Contracted row `k`, column `j 1` of the weights. -/
abbrev colAt1 (j : S5000x128.Idx) (k : Fin 256) : S256x128.Idx := fun a => match a with
  | ⟨0, _⟩ => ⟨k.val, k.isLt⟩
  | ⟨1, _⟩ => ⟨(j 1).val, (j 1).isLt⟩

theorem lhs1_0 (i : S5000x128.Idx) (q : dot_S5000x256_S256x128_S5000x128_1_0_0_1_n_n.contr.Idx) :
    (dot_S5000x256_S256x128_S5000x128_1_0_0_1_n_n.lhsIdx i q 0).val = (i 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs1_1 (i : S5000x128.Idx) (q : dot_S5000x256_S256x128_S5000x128_1_0_0_1_n_n.contr.Idx) :
    (dot_S5000x256_S256x128_S5000x128_1_0_0_1_n_n.lhsIdx i q 1).val = (q ⟨0, by decide⟩).val :=
  dot_S5000x256_S256x128_S5000x128_1_0_0_1_n_n.lhsIdx_val_of_single rfl i q
theorem rhs1_0 (i : S5000x128.Idx) (q : dot_S5000x256_S256x128_S5000x128_1_0_0_1_n_n.contr.Idx) :
    (dot_S5000x256_S256x128_S5000x128_1_0_0_1_n_n.rhsIdx i q 0).val = (q ⟨0, by decide⟩).val :=
  dot_S5000x256_S256x128_S5000x128_1_0_0_1_n_n.rhsIdx_val_of_single rfl i q
theorem rhs1_1 (i : S5000x128.Idx) (q : dot_S5000x256_S256x128_S5000x128_1_0_0_1_n_n.contr.Idx) :
    (dot_S5000x256_S256x128_S5000x128_1_0_0_1_n_n.rhsIdx i q 1).val = (i 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-- The product into the zero accumulator, at (r, c): the sum over the 256 contracted entries of x (r, k) · W (k, c). -/
theorem matmul1_apply (x0 : FVec Ideal S5000x256 .f32) (x1 : FVec Ideal S256x128 .f32) (j : S5000x128.Idx) :
    matmul dot_S5000x256_S256x128_S5000x128_1_0_0_1_n_n (some .fp32) x0 x1 (constant S5000x128 .f32 0x00000000#32) j
      = ∑ k : Fin 256, x0 (rowAt1 j k) * x1 (colAt1 j k) := by
  show FloatOps.matmul dot_S5000x256_S256x128_S5000x128_1_0_0_1_n_n (some .fp32) x0 x1 (constant S5000x128 .f32 0x00000000#32) j = _
  rw [Ideal.matmul_constant_zero_apply, ← Equiv.sum_comp (ValueIdx.contrEquiv1 dot_S5000x256_S256x128_S5000x128_1_0_0_1_n_n 256 rfl rfl).symm]
  refine Finset.sum_congr rfl fun k _ => ?_
  have hk := ValueIdx.contrEquiv1_symm_val dot_S5000x256_S256x128_S5000x128_1_0_0_1_n_n 256 rfl rfl k
  have el : dot_S5000x256_S256x128_S5000x128_1_0_0_1_n_n.lhsIdx j ((ValueIdx.contrEquiv1 dot_S5000x256_S256x128_S5000x128_1_0_0_1_n_n 256 rfl rfl).symm k) = rowAt1 j k := funext fun a => Fin.ext (by
    match a with
    | ⟨0, _⟩ => exact lhs1_0 _ _
    | ⟨1, _⟩ => exact (lhs1_1 _ _).trans hk)
  have er : dot_S5000x256_S256x128_S5000x128_1_0_0_1_n_n.rhsIdx j ((ValueIdx.contrEquiv1 dot_S5000x256_S256x128_S5000x128_1_0_0_1_n_n 256 rfl rfl).symm k) = colAt1 j k := funext fun a => Fin.ext (by
    match a with
    | ⟨0, _⟩ => exact (rhs1_0 _ _).trans hk
    | ⟨1, _⟩ => exact rhs1_1 _ _)
  rw [el, er]

/-- The second call's stored value at (r, c) of its block (the body's cast of the left block to its own shape is the identity). -/
theorem pay1_apply (x0 : FVec Ideal S5000x256 .f32) (x1 : FVec Ideal S256x128 .f32) (x2 : FVec Ideal S1x128 .f32) (j : S5000x128.Idx) :
    k1_pay1 (F := Ideal) x0 x1 x2 j = (∑ k : Fin 256, x0 (rowAt1 j k) * x1 (colAt1 j k)) + x2 (biasAt j) := by
  unfold k1_pay1
  show FloatOps.addf (matmul dot_S5000x256_S256x128_S5000x128_1_0_0_1_n_n (some .fp32) (shapeCast S5000x256 x0 shapeCasts_S5000x256_S5000x256) x1 (constant S5000x128 .f32 0x00000000#32) j)
      (broadcastTo S5000x128 (shapeCast S1x128 x2 shapeCasts_S1x128_S1x128) broadcasts_S1x128_S5000x128 j) = _
  rw [shapeCast_self x0, matmul1_apply, bias_apply]
  rfl

end Cert.KernelIdeal.Affine

end
-- ==== Proof.Region0.lean ====
/-
  What the first pallas_call leaves in its output array. The grid has ten points; point `t` reads rows
  `5000·t … 5000·t + 4999` of the node features, the whole weight matrix and the whole bias row, and writes the same
  rows of the output. Every row of the output lies in exactly one point's block (row r in point r / 5000), so the array
  ends holding ONE function of the arrays the call found: `o (r, c) = Σ_k x (r, k) · W (k, c) + b (0, c)`.
  Stated for any contents `V` the call may find on entry.
-/
import proofs.«425653_j85366769975686_1_alg».proof.Proof.Gen.KernelIdeal.Frame
import proofs.«425653_j85366769975686_1_alg».proof.Proof.Affine
import Idealize.ShloMosaic.Lib.Pipeline.Value
import Idealize.ShloMosaic.PureOps.Ideal

set_option maxRecDepth 16384

noncomputable section

namespace Cert.KernelIdeal.Layer0

open Cert.KernelIdeal Cert.KernelIdeal.Gen Cert.KernelIdeal.Affine Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The affine map on whole arrays, [50000, 128] · [128, 128] + [1, 128] -/

/-- Row `i 0`, column `k` of the node features. -/
abbrev rowOf (i : S50000x128.Idx) (k : Fin 128) : S50000x128.Idx := fun a => match a with
  | ⟨0, _⟩ => ⟨(i 0).val, (i 0).isLt⟩
  | ⟨1, _⟩ => ⟨k.val, k.isLt⟩
/-- Row `k`, column `i 1` of the weights. -/
abbrev colOf (i : S50000x128.Idx) (k : Fin 128) : S128x128.Idx := fun a => match a with
  | ⟨0, _⟩ => ⟨k.val, k.isLt⟩
  | ⟨1, _⟩ => ⟨(i 1).val, (i 1).isLt⟩
/-- The bias row's entry above column `i 1`. -/
abbrev biasOf (i : S50000x128.Idx) : S1x128.Idx := fun a => match a with
  | ⟨0, _⟩ => ⟨0, Nat.one_pos⟩
  | ⟨1, _⟩ => ⟨(i 1).val, (i 1).isLt⟩

/-- `x · W + b`, entry by entry. -/
def affine (x : FVec Ideal S50000x128 .f32) (W : FVec Ideal S128x128 .f32) (b : FVec Ideal S1x128 .f32) : FVec Ideal S50000x128 .f32 :=
  fun i => (∑ k : Fin 128, x (rowOf i k) * W (colOf i k)) + b (biasOf i)

/-! ## The blocks -/

/-- The index maps over the grid: the left operand's and the output's blocks move together down the rows, one block
    per point; the weights and the bias row are one block each. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What point `t` writes back is block `t` of the affine map of the arrays the call found. -/
theorem flushed_eq (c : Dev nD) (t : Fin cfg0.N) :
    (dat0 V c).flushed 3 t = ((cfg0.win 3).blk t).view.read (Elt Ideal) (affine (V c main_arg0) (V c main_arg3) (V c main_v0)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  obtain ⟨e0, e1, e2, e3, e4, e5, e6, e7⟩ := idx_facts t
  funext j
  show k0_pay1 (F := Ideal) (iblk0 V c 0 t) (iblk0 V c 1 t) (iblk0 V c 2 t) j
    = affine (V c main_arg0) (V c main_arg3) (V c main_v0) (((cfg0.win 3).blk t).view.emb j)
  refine (pay0_apply (iblk0 V c 0 t) (iblk0 V c 1 t) (iblk0 V c 2 t) j).trans ?_
  unfold affine
  -- the left operand's block read where the output's row says
  have r0 : ∀ k : Fin 128, iblk0 V c 0 t (rowAt0 j k) = V c main_arg0 (rowOf (((cfg0.win 3).blk t).view.emb j) k) := fun k => by
    show V c main_arg0 (((cfg0.win 0).blk t).view.emb (rowAt0 j k)) = _
    refine congrArg (V c main_arg0) (funext fun a => Fin.ext ?_)
    match a with
    | ⟨0, _⟩ => show win0_0.index t (0 : Fin 2) * 5000 + 1 * (j 0).val = win0_3.index t (0 : Fin 2) * 5000 + 1 * (j 0).val; rw [e0]
    | ⟨1, _⟩ => show win0_0.index t (1 : Fin 2) * 128 + 1 * k.val = k.val; rw [e1]; omega
  -- the weights, one block
  have r1 : ∀ k : Fin 128, iblk0 V c 1 t (colAt0 j k) = V c main_arg3 (colOf (((cfg0.win 3).blk t).view.emb j) k) := fun k => by
    show V c main_arg3 (((cfg0.win 1).blk t).view.emb (colAt0 j k)) = _
    refine congrArg (V c main_arg3) (funext fun a => Fin.ext ?_)
    match a with
    | ⟨0, _⟩ => show win0_1.index t (0 : Fin 2) * 128 + 1 * k.val = k.val; rw [e2]; omega
    | ⟨1, _⟩ => show win0_1.index t (1 : Fin 2) * 128 + 1 * (j 1).val = win0_3.index t (1 : Fin 2) * 128 + 1 * (j 1).val; rw [e3, e7]
  -- the bias row, one block
  have r2 : iblk0 V c 2 t (biasAt j) = V c main_v0 (biasOf (((cfg0.win 3).blk t).view.emb j)) := by
    show V c main_v0 (((cfg0.win 2).blk t).view.emb (biasAt j)) = _
    refine congrArg (V c main_v0) (funext fun a => Fin.ext ?_)
    match a with
    | ⟨0, _⟩ => show win0_2.index t (0 : Fin 2) * 1 + 1 * 0 = 0; rw [e4]
    | ⟨1, _⟩ => show win0_2.index t (1 : Fin 2) * 128 + 1 * (j 1).val = win0_3.index t (1 : Fin 2) * 128 + 1 * (j 1).val; rw [e5, e7]
  exact congrArg₂ (· + ·) (Finset.sum_congr rfl fun k _ => by rw [r0 k, r1 k]) r2

/-- An index of the output array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v1).slice (win0_3.rect t)).set ↔ _
  rw [View.set_slice_whole, Rect.mem_set_unit]
  exact Iff.rfl

/-- Row r of the output is written by grid point r / 5000. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  let t : Fin cfg0.N := ⟨(i 0).val / 5000, by show _ < grid0.N; rw [N_0]; omega⟩
  obtain ⟨e0, e1, e2, e3, e4, e5, e6, e7⟩ := idx_facts t
  have ht : (t : Fin cfg0.N).val = (i 0).val / 5000 := rfl
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; rw [e6, ht]; omega
  | ⟨1, _⟩ => show win0_3.index t (1 : Fin 2) * 128 ≤ (i 1).val ∧ (i 1).val < win0_3.index t (1 : Fin 2) * 128 + 128; rw [e7]; omega

/-- The output array after the call: the affine map of the arrays the call found. -/
theorem final (c : Dev nD) :
    (dat0 V c).arrAt 3 cfg0.N = affine (V c main_arg0) (V c main_arg3) (V c main_v0) :=
  (dat0 V c).arrAt_eq_of_cover 3 (affine (V c main_arg0) (V c main_arg3) (V c main_v0)) (fun t _ => flushed_eq V c t) (cover)

end Cert.KernelIdeal.Layer0

end
-- ==== Proof.Region1.lean ====
/-
  What the second pallas_call leaves in its output array: as for the first, with the [50000, 256] concatenation of the
  aggregated messages and the first layer's features as the left operand and 256 contracted entries —
  `o (r, c) = Σ_{k < 256} y (r, k) · W₂ (k, c) + b₂ (0, c)` for every row r (row r is written by grid point r / 5000).
  Stated for any contents `V` the call may find on entry.
-/
import proofs.«425653_j85366769975686_1_alg».proof.Proof.Gen.KernelIdeal.Frame
import proofs.«425653_j85366769975686_1_alg».proof.Proof.Affine
import Idealize.ShloMosaic.Lib.Pipeline.Value
import Idealize.ShloMosaic.PureOps.Ideal

set_option maxRecDepth 16384

noncomputable section

namespace Cert.KernelIdeal.Layer1

open Cert.KernelIdeal Cert.KernelIdeal.Gen Cert.KernelIdeal.Affine Idealize.ShloMosaic Idealize.ShloMosaic.TcCoe
open Idealize.SL Idealize.SL.Sem
open Idealize.ShloMosaic.Pipeline (Dat Cfg Window)

variable (V : (c : Dev nD) → (b : Ref sig .tc) → Buf (Elt Ideal) ((c : Thread nD τ).loc b))

theorem hz : (![0, 0] : Fin 2 → Nat) = fun _ => 0 := funext fun a => by fin_cases a <;> rfl

/-! ## The affine map on whole arrays, [50000, 256] · [256, 128] + [1, 128] -/

/-- Row `i 0`, column `k` of the concatenated layer input. -/
abbrev rowOf (i : S50000x128.Idx) (k : Fin 256) : S50000x256.Idx := fun a => match a with
  | ⟨0, _⟩ => ⟨(i 0).val, (i 0).isLt⟩
  | ⟨1, _⟩ => ⟨k.val, k.isLt⟩
/-- Row `k`, column `i 1` of the weights. -/
abbrev colOf (i : S50000x128.Idx) (k : Fin 256) : S256x128.Idx := fun a => match a with
  | ⟨0, _⟩ => ⟨k.val, k.isLt⟩
  | ⟨1, _⟩ => ⟨(i 1).val, (i 1).isLt⟩
/-- The bias row's entry above column `i 1`. -/
abbrev biasOf (i : S50000x128.Idx) : S1x128.Idx := fun a => match a with
  | ⟨0, _⟩ => ⟨0, Nat.one_pos⟩
  | ⟨1, _⟩ => ⟨(i 1).val, (i 1).isLt⟩

/-- `x · W + b`, entry by entry. -/
def affine (x : FVec Ideal S50000x256 .f32) (W : FVec Ideal S256x128 .f32) (b : FVec Ideal S1x128 .f32) : FVec Ideal S50000x128 .f32 :=
  fun i => (∑ k : Fin 256, x (rowOf i k) * W (colOf i k)) + b (biasOf i)

/-! ## The blocks -/

/-- The index maps over the grid: the left operand's and the output's blocks move together down the rows, one block
    per point; the weights and the bias row are one block each. -/
theorem idx_facts : ∀ t : Fin cfg1.N, win1_0.index t (0 : Fin 2) = win1_3.index t (0 : Fin 2)
    ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What point `t` writes back is block `t` of the affine map of the arrays the call found. -/
theorem flushed_eq (c : Dev nD) (t : Fin cfg1.N) :
    (dat1 V c).flushed 3 t = ((cfg1.win 3).blk t).view.read (Elt Ideal) (affine (V c main_v6) (V c main_arg5) (V c main_v7)) := by
  show (cfg1.win 3).cut (grid1.coords t) ((dat1 V c).after 3 t) = _
  rw [after1_3]
  unfold out1_3
  rw [View.canon_unit_zero hz]
  simp only [View.ld_unit_zero (S := S5000x256) hz, View.ld_unit_zero (S := S256x128) hz, View.ld_unit_zero (S := S1x128) hz]
  obtain ⟨e0, e1, e2, e3, e4, e5, e6, e7⟩ := idx_facts t
  funext j
  show k1_pay1 (F := Ideal) (iblk1 V c 0 t) (iblk1 V c 1 t) (iblk1 V c 2 t) j
    = affine (V c main_v6) (V c main_arg5) (V c main_v7) (((cfg1.win 3).blk t).view.emb j)
  refine (pay1_apply (iblk1 V c 0 t) (iblk1 V c 1 t) (iblk1 V c 2 t) j).trans ?_
  unfold affine
  -- the left operand's block read where the output's row says
  have r0 : ∀ k : Fin 256, iblk1 V c 0 t (rowAt1 j k) = V c main_v6 (rowOf (((cfg1.win 3).blk t).view.emb j) k) := fun k => by
    show V c main_v6 (((cfg1.win 0).blk t).view.emb (rowAt1 j k)) = _
    refine congrArg (V c main_v6) (funext fun a => Fin.ext ?_)
    match a with
    | ⟨0, _⟩ => show win1_0.index t (0 : Fin 2) * 5000 + 1 * (j 0).val = win1_3.index t (0 : Fin 2) * 5000 + 1 * (j 0).val; rw [e0]
    | ⟨1, _⟩ => show win1_0.index t (1 : Fin 2) * 256 + 1 * k.val = k.val; rw [e1]; omega
  -- the weights, one block
  have r1 : ∀ k : Fin 256, iblk1 V c 1 t (colAt1 j k) = V c main_arg5 (colOf (((cfg1.win 3).blk t).view.emb j) k) := fun k => by
    show V c main_arg5 (((cfg1.win 1).blk t).view.emb (colAt1 j k)) = _
    refine congrArg (V c main_arg5) (funext fun a => Fin.ext ?_)
    match a with
    | ⟨0, _⟩ => show win1_1.index t (0 : Fin 2) * 256 + 1 * k.val = k.val; rw [e2]; omega
    | ⟨1, _⟩ => show win1_1.index t (1 : Fin 2) * 128 + 1 * (j 1).val = win1_3.index t (1 : Fin 2) * 128 + 1 * (j 1).val; rw [e3, e7]
  -- the bias row, one block
  have r2 : iblk1 V c 2 t (biasAt j) = V c main_v7 (biasOf (((cfg1.win 3).blk t).view.emb j)) := by
    show V c main_v7 (((cfg1.win 2).blk t).view.emb (biasAt j)) = _
    refine congrArg (V c main_v7) (funext fun a => Fin.ext ?_)
    match a with
    | ⟨0, _⟩ => show win1_2.index t (0 : Fin 2) * 1 + 1 * 0 = 0; rw [e4]
    | ⟨1, _⟩ => show win1_2.index t (1 : Fin 2) * 128 + 1 * (j 1).val = win1_3.index t (1 : Fin 2) * 128 + 1 * (j 1).val; rw [e5, e7]
  exact congrArg₂ (· + ·) (Finset.sum_congr rfl fun k _ => by rw [r0 k, r1 k]) r2

/-- An index of the output array is in point `t`'s block iff each coordinate is in the block's range on its axis. -/
theorem mem_blk (t : Fin cfg1.N) (i : S50000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v8).slice (win1_3.rect t)).set ↔ _
  rw [View.set_slice_whole, Rect.mem_set_unit]
  exact Iff.rfl

/-- Row r of the output is written by grid point r / 5000. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  let t : Fin cfg1.N := ⟨(i 0).val / 5000, by show _ < grid1.N; rw [N_1]; omega⟩
  obtain ⟨e0, e1, e2, e3, e4, e5, e6, e7⟩ := idx_facts t
  have ht : (t : Fin cfg1.N).val = (i 0).val / 5000 := rfl
  refine ⟨t, flush1_3 t, ?_⟩
  rw [mem_blk]
  intro a
  match a with
  | ⟨0, _⟩ => show win1_3.index t (0 : Fin 2) * 5000 ≤ (i 0).val ∧ (i 0).val < win1_3.index t (0 : Fin 2) * 5000 + 5000; rw [e6, ht]; omega
  | ⟨1, _⟩ => show win1_3.index t (1 : Fin 2) * 128 ≤ (i 1).val ∧ (i 1).val < win1_3.index t (1 : Fin 2) * 128 + 128; rw [e7]; omega

/-- The output array after the call: the affine map of the arrays the call found. -/
theorem final (c : Dev nD) :
    (dat1 V c).arrAt 3 cfg1.N = affine (V c main_v6) (V c main_arg5) (V c main_v7) :=
  (dat1 V c).arrAt_eq_of_cover 3 (affine (V c main_v6) (V c main_arg5) (V c main_v7)) (fun t _ => flushed_eq V c t) (cover)

end Cert.KernelIdeal.Layer1

end
-- ==== Proof.TakeFill.lean ====
/-
  The row gather `m[src]` as the kernel's program spells it (jnp.take, fill mode) against the plain clamping gather.
  The program first wraps a negative index once (`i < 0 ? i + 50000 : i`), tests the wrapped index against the table's
  rows (`0 ≤ i' ≤ 49999`), gathers row `i'` with the start clamped into the table, and finally keeps the gathered row
  where the test held and fills the row with a quiet-NaN pattern where it did not. When every index already lies in
  `[0, 50000)` the wrap leaves it alone, the test holds on every row, the fill is never taken, and the result IS the
  clamping gather at the wrapped indices — which is the reference's own term for `m[src]`.
-/
import proofs.«425653_j85366769975686_1_alg».proof.Proof.Gen.KernelIdeal
import Idealize.ShloMosaic.Lib.ReduceAll
import Idealize.ShloMosaic.Lib.StableHlo.Predicate

noncomputable section

namespace Cert.KernelIdeal.Take

open Cert.KernelIdeal Cert.KernelIdeal.Gen Idealize.ShloMosaic

variable {F : FTy → Type} [FloatOps F]

/-- The index column the gather reads: each index wrapped once if negative, as a [800000, 1] array. -/
def wrapped (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- Per gathered row: is the wrapped index inside the table (`0 ≤ i' ∧ i' ≤ 49999`)? -/
def inTable (src : IVec S800000 32) : IVec S800000 1 :=
  Host.reduce IntOp.andi
    (andi (cmpi .sge (wrapped src) (broadcastInDim S800000x1 ![] bcast_S_S800000x1 (constantI S_ 32 0#32)))
      (cmpi .sle (wrapped src) (broadcastInDim S800000x1 ![0, 1] bcast_S1x1_S800000x1_0_1
        (broadcastInDim S1x1 ![1] bcast_S1_S1x1_1 (constantI S1 32 49999#32)))))
    (constantI S_ 1 1#1) reducesTo_S800000x1_S800000_d1 h_S_

/-- The fill-mode take of rows of `M`: the gathered row where the index is inside the table, the NaN pattern elsewhere. -/
def takeFill (M : FVec F S50000x128 .f32) (src : IVec S800000 32) : FVec F S800000x128 .f32 :=
  select (broadcastInDim S800000x128 ![0] bcast_S800000_S800000x128_0 (inTable src))
    (Host.gather gather_S50000x128_S800000x1_S800000x128_1_0_n_n_0_1_1128 M (wrapped src))
    (broadcastInDim S800000x128 ![] bcast_S_S800000x128 (constant S_ .f32 0x7FC00000#32))

/-- Every edge's source index names a row of the table: `0 ≤ src e < 50000`, as the two signed compares the
    precondition states. -/
def InRange (src : IVec S800000 32) : Prop :=
  ∀ e : S800000.Idx, IntOp.cmpi .sge (src e) 0#32 = 1#1 ∧ IntOp.cmpi .slt (src e) 50000#32 = 1#1

/-- A fold by `and` from 1 over words that are all 1 is 1. -/
theorem foldl_andi_all_one {ι : Type} (f : ι → BitVec 1) :
    ∀ (l : List ι) (init : BitVec 1), init = 1#1 → (∀ n ∈ l, f n = 1#1) → l.foldl (fun r n => IntOp.andi r (f n)) init = 1#1
  | [], _, h, _ => h
  | a :: l, init, h, hl => by
    refine foldl_andi_all_one f l _ ?_ (fun n hn => hl n (List.mem_cons_of_mem _ hn))
    show IntOp.andi init (f a) = 1#1
    rw [h, hl a (List.mem_cons_self ..)]; decide

/-- A word in `[0, 50000)` (signed) is not negative and is at most 49999. -/
theorem word_facts {w : BitVec 32} (h0 : IntOp.cmpi .sge w 0#32 = 1#1) (h1 : IntOp.cmpi .slt w 50000#32 = 1#1) :
    IntOp.cmpi .slt w 0#32 = 0#1 ∧ IntOp.cmpi .sle w 49999#32 = 1#1 := by
  simp only [IntOp.cmpi, StableHlo.Predicate.ofBool_eq_one_iff] at h0 h1 ⊢
  have z : (0#32 : BitVec 32).toInt = 0 := by decide
  have a : (50000#32 : BitVec 32).toInt = 50000 := by decide
  have b : (49999#32 : BitVec 32).toInt = 49999 := by decide
  rw [BitVec.sle_iff_toInt_le, z] at h0
  rw [BitVec.slt_iff_toInt_lt, a] at h1
  refine ⟨?_, ?_⟩
  · have hn : w.slt 0#32 = false := by
      rw [BitVec.slt_eq_decide, z]; exact decide_eq_false (by omega)
    rw [hn]; rfl
  · rw [BitVec.sle_iff_toInt_le, b]; omega

/-- A wrapped index is the wrap of ONE source index. -/
theorem wrapped_apply (src : IVec S800000 32) (i : S800000x1.Idx) :
    ∃ e : S800000.Idx, wrapped src i = Scalar.select (IntOp.cmpi .slt (src e) 0#32) (IntOp.addi (src e) 50000#32) (src e) :=
  ⟨_, rfl⟩

/-- In range, the test holds on every row. -/
theorem inTable_of_inRange (src : IVec S800000 32) (h : InRange src) : inTable src = fun _ => 1#1 := by
  funext r
  unfold inTable
  rw [Host.reduce_eq_foldl]
  refine foldl_andi_all_one _ _ _ rfl (fun i _ => ?_)
  show IntOp.andi (IntOp.cmpi .sge (wrapped src i) 0#32) (IntOp.cmpi .sle (wrapped src i) 49999#32) = 1#1
  obtain ⟨e, he⟩ := wrapped_apply src i
  obtain ⟨h0, h1⟩ := h e
  obtain ⟨hneg, hle⟩ := word_facts h0 h1
  have hw : wrapped src i = src e := by
    rw [he, hneg]
    show (if (0#1 : BitVec 1) = 1 then _ else _) = _
    exact if_neg (by decide)
  rw [hw, h0, hle]; decide

/-- In range, the fill-mode take is the clamping gather at the wrapped indices. -/
theorem takeFill_eq_gather (M : FVec F S50000x128 .f32) (src : IVec S800000 32) (h : InRange src) :
    takeFill M src = Host.gather gather_S50000x128_S800000x1_S800000x128_1_0_n_n_0_1_1128 M (wrapped src) := by
  unfold takeFill
  rw [inTable_of_inRange src h]
  funext j
  unfold select Scalar.select
  exact if_pos rfl

end Cert.KernelIdeal.Take

end
-- ==== Proof.HostChain.lean ====
/-
  The kernel program's host side, boundary by boundary. @main is: reshape the first bias to a row; the first
  pallas_call (x · W₁ + b₁); the fill-mode take of its rows at the edge sources; a scatter-add of the taken rows into a
  zero array at the edge destinations; the concatenation [aggregate | features]; reshape the second bias; the second
  pallas_call on the concatenation; take, scatter-add and concatenate again. Each lemma below says what ONE buffer holds
  at ONE boundary, as a function of the launch memory: an argument nobody writes is still the launch's, a host
  operation's result is its function of its operands, a call's output array is the affine map of what the call found.
-/
import proofs.«425653_j85366769975686_1_alg».proof.Proof.Gen.KernelIdeal.Frame
import proofs.«425653_j85366769975686_1_alg».proof.Proof.Region0
import proofs.«425653_j85366769975686_1_alg».proof.Proof.Region1
import proofs.«425653_j85366769975686_1_alg».proof.Proof.TakeFill
import Idealize.ShloMosaic.Lib.StableHlo.Run
import Idealize.ShloMosaic.PureOps.Ideal

set_option maxRecDepth 16384

noncomputable section

namespace Cert.KernelIdeal.Chain

open Cert.KernelIdeal Cert.KernelIdeal.Gen Cert.KernelIdeal.Take Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-! ## The program's value, as one term of the seven arguments -/

/-- A bias vector as the [1, 128] row the calls read. -/
def biasRow (b : FVec Ideal S128 .f32) : FVec Ideal S1x128 .f32 := shapeCast S1x128 b shapeCasts_S128_S1x128

/-- The segment sum: the taken rows added into a zero array at the edges' destination rows. -/
def aggregate (g : FVec Ideal S800000x128 .f32) (dst : IVec S800000 32) : FVec Ideal S50000x128 .f32 :=
  Host.scatterAdd scatter_S50000x128_S800000x1_S800000x128_1_0_0_1
    (broadcastInDim S50000x128 ![] bcast_S_S50000x128 (constant S_ .f32 0x00000000#32))
    (broadcastInDim S800000x1 ![0] bcast_S800000_S800000x1_0 dst) g

/-- One layer after its linear map `M`: [ segment-sum of M's rows taken at the sources | M ]. -/
def layerOut (M : FVec Ideal S50000x128 .f32) (src dst : IVec S800000 32) : FVec Ideal S50000x256 .f32 :=
  concatenate S50000x256 1 [⟨S50000x128, aggregate (takeFill M src) dst⟩, ⟨S50000x128, M⟩] concatenates_S50000x128_S50000x128_S50000x256_d1

/-- The two layers. -/
def value (x0 : FVec Ideal S50000x128 .f32) (x1 x2 : IVec S800000 32) (x3 : FVec Ideal S128x128 .f32) (x4 : FVec Ideal S128 .f32)
    (x5 : FVec Ideal S256x128 .f32) (x6 : FVec Ideal S128 .f32) : FVec Ideal S50000x256 .f32 :=
  layerOut (Layer1.affine (layerOut (Layer0.affine x0 x3 (biasRow x4)) x1 x2) x5 (biasRow x6)) x1 x2

/-! ## Buffers nobody writes between two boundaries -/

theorem keep1_main_arg0 (c : Dev nD) : W1 m ρ c (Proc.devRef .tc main_arg0) = W0 m ρ c (Proc.devRef .tc main_arg0) := by
  show StableHlo.after hostOps0 (W0 m ρ c) (Proc.devRef .tc main_arg0) = _
  after_results_simp
theorem keep1_main_arg1 (c : Dev nD) : W1 m ρ c (Proc.devRef .tc main_arg1) = W0 m ρ c (Proc.devRef .tc main_arg1) := by
  show StableHlo.after hostOps0 (W0 m ρ c) (Proc.devRef .tc main_arg1) = _
  after_results_simp
theorem keep1_main_arg2 (c : Dev nD) : W1 m ρ c (Proc.devRef .tc main_arg2) = W0 m ρ c (Proc.devRef .tc main_arg2) := by
  show StableHlo.after hostOps0 (W0 m ρ c) (Proc.devRef .tc main_arg2) = _
  after_results_simp
theorem keep1_main_arg3 (c : Dev nD) : W1 m ρ c (Proc.devRef .tc main_arg3) = W0 m ρ c (Proc.devRef .tc main_arg3) := by
  show StableHlo.after hostOps0 (W0 m ρ c) (Proc.devRef .tc main_arg3) = _
  after_results_simp
theorem keep1_main_arg5 (c : Dev nD) : W1 m ρ c (Proc.devRef .tc main_arg5) = W0 m ρ c (Proc.devRef .tc main_arg5) := by
  show StableHlo.after hostOps0 (W0 m ρ c) (Proc.devRef .tc main_arg5) = _
  after_results_simp
theorem keep1_main_arg6 (c : Dev nD) : W1 m ρ c (Proc.devRef .tc main_arg6) = W0 m ρ c (Proc.devRef .tc main_arg6) := by
  show StableHlo.after hostOps0 (W0 m ρ c) (Proc.devRef .tc main_arg6) = _
  after_results_simp
theorem keep2_main_arg1 (c : Dev nD) : W2 m ρ c (Proc.devRef .tc main_arg1) = W1 m ρ c (Proc.devRef .tc main_arg1) := W2_of_ne m ρ c main_arg1 (by decide)
theorem keep2_main_arg2 (c : Dev nD) : W2 m ρ c (Proc.devRef .tc main_arg2) = W1 m ρ c (Proc.devRef .tc main_arg2) := W2_of_ne m ρ c main_arg2 (by decide)
theorem keep2_main_arg5 (c : Dev nD) : W2 m ρ c (Proc.devRef .tc main_arg5) = W1 m ρ c (Proc.devRef .tc main_arg5) := W2_of_ne m ρ c main_arg5 (by decide)
theorem keep2_main_arg6 (c : Dev nD) : W2 m ρ c (Proc.devRef .tc main_arg6) = W1 m ρ c (Proc.devRef .tc main_arg6) := W2_of_ne m ρ c main_arg6 (by decide)
theorem keep3_main_v1 (c : Dev nD) : W3 m ρ c (Proc.devRef .tc main_v1) = W2 m ρ c (Proc.devRef .tc main_v1) := by
  show StableHlo.after hostOps1 (W2 m ρ c) (Proc.devRef .tc main_v1) = _
  after_results_simp
theorem keep3_main_arg1 (c : Dev nD) : W3 m ρ c (Proc.devRef .tc main_arg1) = W2 m ρ c (Proc.devRef .tc main_arg1) := by
  show StableHlo.after hostOps1 (W2 m ρ c) (Proc.devRef .tc main_arg1) = _
  after_results_simp
theorem keep3_main_arg2 (c : Dev nD) : W3 m ρ c (Proc.devRef .tc main_arg2) = W2 m ρ c (Proc.devRef .tc main_arg2) := by
  show StableHlo.after hostOps1 (W2 m ρ c) (Proc.devRef .tc main_arg2) = _
  after_results_simp
theorem keep3_main_arg5 (c : Dev nD) : W3 m ρ c (Proc.devRef .tc main_arg5) = W2 m ρ c (Proc.devRef .tc main_arg5) := by
  show StableHlo.after hostOps1 (W2 m ρ c) (Proc.devRef .tc main_arg5) = _
  after_results_simp
theorem keep3_main_arg6 (c : Dev nD) : W3 m ρ c (Proc.devRef .tc main_arg6) = W2 m ρ c (Proc.devRef .tc main_arg6) := by
  show StableHlo.after hostOps1 (W2 m ρ c) (Proc.devRef .tc main_arg6) = _
  after_results_simp
theorem keep4_main_arg1 (c : Dev nD) : W4 m ρ c (Proc.devRef .tc main_arg1) = W3 m ρ c (Proc.devRef .tc main_arg1) := by
  show StableHlo.after hostOps1_1 (W3 m ρ c) (Proc.devRef .tc main_arg1) = _
  after_results_simp
theorem keep4_main_arg2 (c : Dev nD) : W4 m ρ c (Proc.devRef .tc main_arg2) = W3 m ρ c (Proc.devRef .tc main_arg2) := by
  show StableHlo.after hostOps1_1 (W3 m ρ c) (Proc.devRef .tc main_arg2) = _
  after_results_simp
theorem keep4_main_arg5 (c : Dev nD) : W4 m ρ c (Proc.devRef .tc main_arg5) = W3 m ρ c (Proc.devRef .tc main_arg5) := by
  show StableHlo.after hostOps1_1 (W3 m ρ c) (Proc.devRef .tc main_arg5) = _
  after_results_simp
theorem keep5_main_arg1 (c : Dev nD) : W5 m ρ c (Proc.devRef .tc main_arg1) = W4 m ρ c (Proc.devRef .tc main_arg1) := W5_of_ne m ρ c main_arg1 (by decide)
theorem keep5_main_arg2 (c : Dev nD) : W5 m ρ c (Proc.devRef .tc main_arg2) = W4 m ρ c (Proc.devRef .tc main_arg2) := W5_of_ne m ρ c main_arg2 (by decide)
theorem keep6_main_v8 (c : Dev nD) : W6 m ρ c (Proc.devRef .tc main_v8) = W5 m ρ c (Proc.devRef .tc main_v8) := by
  show StableHlo.after hostOps2 (W5 m ρ c) (Proc.devRef .tc main_v8) = _
  after_results_simp
theorem keep6_main_arg1 (c : Dev nD) : W6 m ρ c (Proc.devRef .tc main_arg1) = W5 m ρ c (Proc.devRef .tc main_arg1) := by
  show StableHlo.after hostOps2 (W5 m ρ c) (Proc.devRef .tc main_arg1) = _
  after_results_simp
theorem keep6_main_arg2 (c : Dev nD) : W6 m ρ c (Proc.devRef .tc main_arg2) = W5 m ρ c (Proc.devRef .tc main_arg2) := by
  show StableHlo.after hostOps2 (W5 m ρ c) (Proc.devRef .tc main_arg2) = _
  after_results_simp

/-! ## Typed references: moving contents along `ty_eq` and back is the identity -/

theorem ofBuf_toBuf {T : BufTy} (x : StableHlo.TRef sig T) (v : T.Contents (Elt Ideal)) : x.ofBuf (x.toBuf v) = v := by
  obtain ⟨r, h, h2, h3⟩ := x
  subst h
  rfl

theorem ofBuf_arg1 (h1 h2 h3) (u : (Proc.devRef .tc main_arg1 : DevRef τ sig).ty.Contents (Elt Ideal)) :
    (StableHlo.TRef.of (T := ⟨S800000, .i32⟩) main_arg1 h1 h2 h3).ofBuf u = u := rfl
theorem ofBuf_v1 (h1 h2 h3) (u : (Proc.devRef .tc main_v1 : DevRef τ sig).ty.Contents (Elt Ideal)) :
    (StableHlo.TRef.of (T := ⟨S50000x128, .f32⟩) main_v1 h1 h2 h3).ofBuf u = u := rfl
theorem ofBuf_v8 (h1 h2 h3) (u : (Proc.devRef .tc main_v8 : DevRef τ sig).ty.Contents (Elt Ideal)) :
    (StableHlo.TRef.of (T := ⟨S50000x128, .f32⟩) main_v8 h1 h2 h3).ofBuf u = u := rfl
theorem toBuf_v2 (h1 h2 h3) (v : (⟨S800000x128, .f32⟩ : BufTy).Contents (Elt Ideal)) :
    (StableHlo.TRef.of (T := ⟨S800000x128, .f32⟩) main_v2 h1 h2 h3).toBuf v = v := rfl
theorem toBuf_v9 (h1 h2 h3) (v : (⟨S800000x128, .f32⟩ : BufTy).Contents (Elt Ideal)) :
    (StableHlo.TRef.of (T := ⟨S800000x128, .f32⟩) main_v9 h1 h2 h3).toBuf v = v := rfl

/-! ## The values -/

/-- The launch memory read at a reference. -/
theorem W0_eq (c : Dev nD) (b : Ref sig .tc) : W0 m ρ c (Proc.devRef .tc b) = m ((c : Thread nD τ).loc b) := rfl

/-- After the first reshape: the first bias as a row. -/
theorem W1_v0 (c : Dev nD) : W1 m ρ c (Proc.devRef .tc main_v0) = biasRow (m ((c : Thread nD τ).loc main_arg4)) := by
  show StableHlo.after hostOps0 (W0 m ρ c) (Proc.devRef .tc main_v0) = _
  after_results
  rfl

/-- After the first call: its output array is the affine map of the launch's features, weights and bias. -/
theorem W2_v1 (c : Dev nD) : W2 m ρ c (Proc.devRef .tc main_v1) = Layer0.affine (m ((c : Thread nD τ).loc main_arg0)) (m ((c : Thread nD τ).loc main_arg3)) (biasRow (m ((c : Thread nD τ).loc main_arg4))) := by
  refine (W2_arr m ρ c 3).trans ((Layer0.final (V1 m ρ) c).trans ?_)
  show Layer0.affine (W1 m ρ c (Proc.devRef .tc main_arg0)) (W1 m ρ c (Proc.devRef .tc main_arg3)) (W1 m ρ c (Proc.devRef .tc main_v0)) = _
  rw [keep1_main_arg0, keep1_main_arg3, W1_v0]

/-- The first layer's linear map, of the launch memory. -/
abbrev lin0 (c : Dev nD) : FVec Ideal S50000x128 .f32 :=
  Layer0.affine (m ((c : Thread nD τ).loc main_arg0)) (m ((c : Thread nD τ).loc main_arg3)) (biasRow (m ((c : Thread nD τ).loc main_arg4)))

set_option maxHeartbeats 1000000 in
/-- After the first take: the fill-mode take of the first call's rows at the edge sources. -/
theorem W3_v2 (c : Dev nD) : W3 m ρ c (Proc.devRef .tc main_v2) = takeFill (lin0 m c) (m ((c : Thread nD τ).loc main_arg1)) := by
  have e : W3 m ρ c (Proc.devRef .tc main_v2) = takeFill (F := Ideal) (W2 m ρ c (Proc.devRef .tc main_v1)) (W2 m ρ c (Proc.devRef .tc main_arg1)) := by
    show StableHlo.after hostOps1 (W2 m ρ c) (Proc.devRef .tc main_v2) = _
    after_results_simp
    simp only [ofBuf_toBuf, ofBuf_arg1, ofBuf_v1, toBuf_v2]
    rfl
  rw [e, W2_v1, keep2_main_arg1, keep1_main_arg1]

set_option maxHeartbeats 1000000 in
/-- After the first scatter-add and concatenation: the first layer's output. -/
theorem W4_v6 (c : Dev nD) : W4 m ρ c (Proc.devRef .tc main_v6) = layerOut (lin0 m c) (m ((c : Thread nD τ).loc main_arg1)) (m ((c : Thread nD τ).loc main_arg2)) := by
  have e : W4 m ρ c (Proc.devRef .tc main_v6) = concatenate S50000x256 1
      [⟨S50000x128, aggregate (W3 m ρ c (Proc.devRef .tc main_v2)) (W3 m ρ c (Proc.devRef .tc main_arg2))⟩, ⟨S50000x128, W3 m ρ c (Proc.devRef .tc main_v1)⟩]
      concatenates_S50000x128_S50000x128_S50000x256_d1 := by
    show StableHlo.after hostOps1_1 (W3 m ρ c) (Proc.devRef .tc main_v6) = _
    after_results_simp
    rfl
  rw [e, W3_v2, keep3_main_v1, W2_v1, keep3_main_arg2, keep2_main_arg2, keep1_main_arg2]
  rfl

/-- After the second reshape: the second bias as a row. -/
theorem W4_v7 (c : Dev nD) : W4 m ρ c (Proc.devRef .tc main_v7) = biasRow (m ((c : Thread nD τ).loc main_arg6)) := by
  have e : W4 m ρ c (Proc.devRef .tc main_v7) = biasRow (W3 m ρ c (Proc.devRef .tc main_arg6)) := by
    show StableHlo.after hostOps1_1 (W3 m ρ c) (Proc.devRef .tc main_v7) = _
    after_results_simp
    rfl
  rw [e, keep3_main_arg6, keep2_main_arg6, keep1_main_arg6]

/-- The second layer's linear map, of the launch memory. -/
abbrev lin1 (c : Dev nD) : FVec Ideal S50000x128 .f32 :=
  Layer1.affine (layerOut (lin0 m c) (m ((c : Thread nD τ).loc main_arg1)) (m ((c : Thread nD τ).loc main_arg2))) (m ((c : Thread nD τ).loc main_arg5)) (biasRow (m ((c : Thread nD τ).loc main_arg6)))

/-- After the second call: its output array is the affine map of the first layer's output. -/
theorem W5_v8 (c : Dev nD) : W5 m ρ c (Proc.devRef .tc main_v8) = lin1 m c := by
  refine (W5_arr m ρ c 3).trans ((Layer1.final (V4 m ρ) c).trans ?_)
  show Layer1.affine (W4 m ρ c (Proc.devRef .tc main_v6)) (W4 m ρ c (Proc.devRef .tc main_arg5)) (W4 m ρ c (Proc.devRef .tc main_v7)) = _
  rw [W4_v6, W4_v7, keep4_main_arg5, keep3_main_arg5, keep2_main_arg5, keep1_main_arg5]

set_option maxHeartbeats 1000000 in
/-- After the second take. -/
theorem W6_v9 (c : Dev nD) : W6 m ρ c (Proc.devRef .tc main_v9) = takeFill (lin1 m c) (m ((c : Thread nD τ).loc main_arg1)) := by
  have e : W6 m ρ c (Proc.devRef .tc main_v9) = takeFill (F := Ideal) (W5 m ρ c (Proc.devRef .tc main_v8)) (W5 m ρ c (Proc.devRef .tc main_arg1)) := by
    show StableHlo.after hostOps2 (W5 m ρ c) (Proc.devRef .tc main_v9) = _
    after_results_simp
    simp only [ofBuf_toBuf, ofBuf_arg1, ofBuf_v8, toBuf_v9]
    rfl
  rw [e, W5_v8, keep5_main_arg1, keep4_main_arg1, keep3_main_arg1, keep2_main_arg1, keep1_main_arg1]

set_option maxHeartbeats 1000000 in
/-- THE RESULT BUFFER at the last boundary: the two layers of the launch memory's seven arguments. -/
theorem result (c : Dev nD) : W7 m ρ c (Proc.devRef .tc main_v13)
    = value (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  have e : W7 m ρ c (Proc.devRef .tc main_v13) = concatenate S50000x256 1
      [⟨S50000x128, aggregate (W6 m ρ c (Proc.devRef .tc main_v9)) (W6 m ρ c (Proc.devRef .tc main_arg2))⟩, ⟨S50000x128, W6 m ρ c (Proc.devRef .tc main_v8)⟩]
      concatenates_S50000x128_S50000x128_S50000x256_d1 := by
    show StableHlo.after hostOps2_1 (W6 m ρ c) (Proc.devRef .tc main_v13) = _
    after_results_simp
    rfl
  rw [e, W6_v9, keep6_main_v8, W5_v8, keep6_main_arg2, keep5_main_arg2, keep4_main_arg2, keep3_main_arg2, keep2_main_arg2, keep1_main_arg2]
  rfl

end Cert.KernelIdeal.Chain

end
-- ==== Proof.RefBridge.lean ====
/-
  The kernel program's value is the reference's. Both programs are two layers of: the affine map `x · W + b`, the rows
  of the result taken at the edge sources, those rows summed into the edge destinations, and the sum concatenated with
  the result itself. Layer by layer:
  * the affine map. The kernel's calls write `Σ_k x (r, k) · W (k, c) + b (0, c)` with the bias as a [1, 128] row; the
    reference computes a `dot_general` — at the ideal instance the same sum over the contracted axis — and adds the
    bias broadcast to [1, 128] and then down the rows: the same entry `b (c)`. No finiteness is used: the two sides are
    the same sum of the same products, in the same order.
  * the take. With every source index in `[0, 50000)` the kernel's fill-mode take is the reference's clamping gather at
    the (unchanged) wrapped indices.
  * the scatter-add and the concatenation are the same operations on both sides, applied to equal operands.
-/
import proofs.«425653_j85366769975686_1_alg».proof.Proof.Gen.ReferenceIdeal.Read
import proofs.«425653_j85366769975686_1_alg».proof.Proof.HostChain
import Idealize.ShloMosaic.Lib.Pipeline.Value

noncomputable section

namespace Cert.KernelIdeal.Bridge

open Cert.KernelIdeal Cert.KernelIdeal.Gen Cert.KernelIdeal.Take Cert.KernelIdeal.Chain Idealize.ShloMosaic Idealize.ShloMosaic.TcCoe

variable (x0 : FVec Ideal S50000x128 .f32) (x1 x2 : IVec S800000 32) (x3 : FVec Ideal S128x128 .f32) (x4 : FVec Ideal S128 .f32)
  (x5 : FVec Ideal S256x128 .f32) (x6 : FVec Ideal S128 .f32)

/-- The bias row above column c is the bias vector's entry c. -/
theorem biasRow_apply (b : FVec Ideal S128 .f32) (j : S1x128.Idx) (k : S128.Idx) (hk : (k 0).val = (j 1).val) :
    biasRow b j = b k :=
  shapeCast_apply b shapeCasts_S128_S1x128 j k (by
    have h0 : (j 0).val = 0 := by have : (j 0).val < 1 := (j 0).isLt; omega
    rw [Shape.rowMajor_val_one, Shape.rowMajor_val_two]
    show (k 0).val = (j 0).val * 128 + (j 1).val
    rw [h0, hk]; omega)

/-! ## The same host operations, as each program names them

Each program carries its own copy of the shapes and of the operations' dimension records; the copies are the same
literals, so the terms below are equal by unfolding. Stated one operation at a time. -/

theorem wrapped_eq : wrapped x1 = Cert.ReferenceIdeal.Read.val_main_v9 (F := Ideal) x1 := rfl
theorem wrapped_eq' : wrapped x1 = Cert.ReferenceIdeal.Read.val_main_v24 (F := Ideal) x1 := rfl
theorem zeros_eq : broadcastInDim S50000x128 ![] bcast_S_S50000x128 (constant (F := Ideal) S_ .f32 0x00000000#32)
    = Cert.ReferenceIdeal.Read.val_main_v11 (F := Ideal) := rfl
theorem zeros_eq' : broadcastInDim S50000x128 ![] bcast_S_S50000x128 (constant (F := Ideal) S_ .f32 0x00000000#32)
    = Cert.ReferenceIdeal.Read.val_main_v26 (F := Ideal) := rfl
theorem dst_eq : broadcastInDim S800000x1 ![0] bcast_S800000_S800000x1_0 x2 = Cert.ReferenceIdeal.Read.val_main_v12 (F := Ideal) x2 := rfl
theorem dst_eq' : broadcastInDim S800000x1 ![0] bcast_S800000_S800000x1_0 x2 = Cert.ReferenceIdeal.Read.val_main_v27 (F := Ideal) x2 := rfl

/-- One layer's tail over ANY linear result `M`, index column `I`, zero array `Z` and destination column `D`: the
    kernel program's scatter-add of the gathered rows and concatenation is the reference's. -/
theorem tail_eq (M : FVec Ideal S50000x128 .f32) (I D : IVec S800000x1 32) (Z : FVec Ideal S50000x128 .f32) :
    concatenate S50000x256 1 [⟨S50000x128, Host.scatterAdd scatter_S50000x128_S800000x1_S800000x128_1_0_0_1 Z D
        (Host.gather gather_S50000x128_S800000x1_S800000x128_1_0_n_n_0_1_1128 M I)⟩, ⟨S50000x128, M⟩]
        concatenates_S50000x128_S50000x128_S50000x256_d1
      = concatenate Cert.ReferenceIdeal.S50000x256 1 [⟨Cert.ReferenceIdeal.S50000x128,
          Host.scatterAdd Cert.ReferenceIdeal.scatter_S50000x128_S800000x1_S800000x128_1_0_0_1 Z D
            (Host.gather Cert.ReferenceIdeal.gather_S50000x128_S800000x1_S800000x128_1_0_n_n_0_1_1128 M I)⟩,
          ⟨Cert.ReferenceIdeal.S50000x128, M⟩] Cert.ReferenceIdeal.Gen.concatenates_S50000x128_S50000x128_S50000x256_d1 := rfl

/-- The first layer's linear map. -/
theorem affine0_eq : Layer0.affine x0 x3 (biasRow x4) = Cert.ReferenceIdeal.Read.val_main_v3 (F := Ideal) x0 x3 x4 := by
  funext i
  rw [Cert.ReferenceIdeal.Read.val_main_v3_apply, Cert.ReferenceIdeal.Read.val_main_v0_apply, Cert.ReferenceIdeal.Read.val_main_v2_apply,
    Cert.ReferenceIdeal.Read.val_main_v1_apply]
  unfold Layer0.affine
  have e0 : ∀ k, Layer0.rowOf i k = Cert.ReferenceIdeal.Read.lidx_main_v0 i k := fun k => funext fun a => by
    match a with | ⟨0, _⟩ => rfl | ⟨1, _⟩ => rfl
  have e1 : ∀ k, Layer0.colOf i k = Cert.ReferenceIdeal.Read.ridx_main_v0 i k := fun k => funext fun a => by
    match a with | ⟨0, _⟩ => rfl | ⟨1, _⟩ => rfl
  have e2 : biasRow x4 (Layer0.biasOf i) = x4 (Cert.ReferenceIdeal.Read.idx_main_v1 (Cert.ReferenceIdeal.Read.idx_main_v2 i)) :=
    biasRow_apply x4 _ _ rfl
  rw [e2]
  exact congrArg (· + _) (Finset.sum_congr rfl fun k _ => by rw [e0 k, e1 k])

/-- The first layer's output. -/
theorem layer0_eq (h : InRange x1) :
    layerOut (Cert.ReferenceIdeal.Read.val_main_v3 (F := Ideal) x0 x3 x4) x1 x2 = Cert.ReferenceIdeal.Read.val_main_v14 (F := Ideal) x0 x1 x2 x3 x4 := by
  unfold layerOut aggregate
  rw [takeFill_eq_gather _ _ h, wrapped_eq, zeros_eq, dst_eq, tail_eq]
  rfl

/-- The second layer's linear map, on the first layer's output. -/
theorem affine1_eq : Layer1.affine (Cert.ReferenceIdeal.Read.val_main_v14 (F := Ideal) x0 x1 x2 x3 x4) x5 (biasRow x6)
    = Cert.ReferenceIdeal.Read.val_main_v18 (F := Ideal) x0 x1 x2 x3 x4 x5 x6 := by
  funext i
  rw [Cert.ReferenceIdeal.Read.val_main_v18_apply, Cert.ReferenceIdeal.Read.val_main_v15_apply, Cert.ReferenceIdeal.Read.val_main_v17_apply,
    Cert.ReferenceIdeal.Read.val_main_v16_apply]
  unfold Layer1.affine
  generalize Cert.ReferenceIdeal.Read.val_main_v14 (F := Ideal) x0 x1 x2 x3 x4 = Y
  have e0 : ∀ k, Layer1.rowOf i k = Cert.ReferenceIdeal.Read.lidx_main_v15 i k := fun k => funext fun a => by
    match a with | ⟨0, _⟩ => rfl | ⟨1, _⟩ => rfl
  have e1 : ∀ k, Layer1.colOf i k = Cert.ReferenceIdeal.Read.ridx_main_v15 i k := fun k => funext fun a => by
    match a with | ⟨0, _⟩ => rfl | ⟨1, _⟩ => rfl
  have e2 : biasRow x6 (Layer1.biasOf i) = x6 (Cert.ReferenceIdeal.Read.idx_main_v16 (Cert.ReferenceIdeal.Read.idx_main_v17 i)) :=
    biasRow_apply x6 _ _ rfl
  rw [e2]
  exact congrArg (· + _) (Finset.sum_congr rfl fun k _ => by rw [e0 k, e1 k])

/-- The second layer's output: the result. -/
theorem layer1_eq (h : InRange x1) :
    layerOut (Cert.ReferenceIdeal.Read.val_main_v18 (F := Ideal) x0 x1 x2 x3 x4 x5 x6) x1 x2
      = Cert.ReferenceIdeal.Read.val_main_v29 (F := Ideal) x0 x1 x2 x3 x4 x5 x6 := by
  unfold layerOut aggregate
  rw [takeFill_eq_gather _ _ h, wrapped_eq', zeros_eq', dst_eq', tail_eq]
  rfl

/-- With every source index in range, the kernel program's value is the reference's result term. -/
theorem value_eq (h : InRange x1) : value x0 x1 x2 x3 x4 x5 x6 = Cert.ReferenceIdeal.Read.val_main_v29 (F := Ideal) x0 x1 x2 x3 x4 x5 x6 := by
  unfold value
  rw [affine0_eq, layer0_eq _ _ _ _ _ h, affine1_eq, layer1_eq _ _ _ _ _ _ _ h]

end Cert.KernelIdeal.Bridge

end
-- ==== Proof.SrcRange.lean ====
/-
  The precondition, read back for the edge sources. `finite_inputs` is a conjunction of `jnp.all`s; its last conjunct is
  `all ((src ≥ 0) ∧ (src < 50000))`: a reduction by `and`, from 1, of the elementwise conjunction of two signed compares
  against the splat constants 0 and 50000. The predicate being 1 therefore says that both compares hold at every edge.
-/
import proofs.«425653_j85366769975686_1_alg».proof.Pre_finite_inputs
import proofs.«425653_j85366769975686_1_alg».proof.Proof.Gen.Pre_finite_inputs
import Idealize.ShloMosaic.Lib.ReduceAll
import Idealize.ShloMosaic.Lib.ValueIdx

noncomputable section

namespace Cert.Pre_finite_inputs.SrcRange

open Cert.Pre_finite_inputs Idealize.ShloMosaic

variable {F : FTy → Type} [FloatOps F] [Facts]

instance : Subsingleton S_.Idx := ⟨fun a b => funext fun d => d.elim0⟩

/-- Where the precondition holds, every source index is in `[0, 50000)` as a signed word. -/
theorem src_in_range (a0 : FVec F S50000x128 .f32) (a1 a2 : IVec S800000 32) (a3 : FVec F S128x128 .f32) (a4 : FVec F S128 .f32)
    (a5 : FVec F S256x128 .f32) (a6 : FVec F S128 .f32)
    (h : fn (F := F) a0 a1 a2 a3 a4 a5 a6 = fun _ => 1#1) (e : S800000.Idx) :
    IntOp.cmpi .sge (a1 e) 0#32 = 1#1 ∧ IntOp.cmpi .slt (a1 e) 50000#32 = 1#1 := by
  have h0 := congrFun h ValueIdx.ix0
  dsimp only [fn, fn_part1] at h0
  obtain ⟨-, h29⟩ := IntOp.andi_eq_one.1 h0
  exact IntOp.andi_eq_one.1 (Host.reduce_andi_all _ _ _ _ _ h29 e)

end Cert.Pre_finite_inputs.SrcRange

end
-- ==== Proof.lean ====
/-
  Two graph layers: each is the affine map `x · W + b` of the node features (a Pallas call per layer, tiled over
  blocks of 5000 rows), the rows of the result taken at the edges' source nodes, those rows summed into the edges'
  destination nodes, and the sum concatenated with the result itself. The reference spells the affine map as a
  `dot_general` plus a broadcast bias and the take as plain indexing `m[src]`; the kernel's program spells the take as
  `jnp.take`, which fills a row with NaN where the (once-wrapped) index falls outside the table, while plain indexing
  clamps. The two agree exactly where every source index names a row, `0 ≤ src < 50000`: the precondition's last
  conjunct, used here and nowhere else; finiteness of the float inputs is not used at all (both sides are the same sums
  of the same products).
  * the frames of the two kernel programs are the generated launch certificates; the reference's is its generated run;
  * `preserves` is trivial (the idealization rewrote nothing);
  * `algebraic`: the kernel program's result buffer ends at the last host boundary's contents (the launch, re-stated
    with that buffer read), which is the two-layer term `Chain.value` of the launch memory (HostChain, over the two
    calls' whole-array values of Region0 / Region1); under the range fact (SrcRange) that term is the reference's
    result term (RefBridge), and the reference's generated run ends there.
-/
import proofs.«425653_j85366769975686_1_alg».proof.Defs
import proofs.«425653_j85366769975686_1_alg».proof.Proof.Gen.Kernel
import proofs.«425653_j85366769975686_1_alg».proof.Proof.Gen.Kernel.Skeleton
import proofs.«425653_j85366769975686_1_alg».proof.Proof.Gen.Kernel.Launch
import proofs.«425653_j85366769975686_1_alg».proof.Proof.Gen.Kernel.Points
import proofs.«425653_j85366769975686_1_alg».proof.Proof.Gen.Kernel.Frame
import proofs.«425653_j85366769975686_1_alg».proof.Proof.Gen.KernelIdeal
import proofs.«425653_j85366769975686_1_alg».proof.Proof.Gen.KernelIdeal.Skeleton
import proofs.«425653_j85366769975686_1_alg».proof.Proof.Gen.KernelIdeal.Launch
import proofs.«425653_j85366769975686_1_alg».proof.Proof.Gen.KernelIdeal.Points
import proofs.«425653_j85366769975686_1_alg».proof.Proof.Gen.KernelIdeal.Frame
import proofs.«425653_j85366769975686_1_alg».proof.Proof.Gen.ReferenceIdeal
import proofs.«425653_j85366769975686_1_alg».proof.Proof.Gen.ReferenceIdeal.Run
import proofs.«425653_j85366769975686_1_alg».proof.Proof.Gen.ReferenceIdeal.Read
import proofs.«425653_j85366769975686_1_alg».proof.Proof.Gen.Pre_finite_inputs
import proofs.«425653_j85366769975686_1_alg».proof.Proof.KernelRun
import proofs.«425653_j85366769975686_1_alg».proof.Proof.HostChain
import proofs.«425653_j85366769975686_1_alg».proof.Proof.RefBridge
import proofs.«425653_j85366769975686_1_alg».proof.Proof.SrcRange
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Where the precondition holds every edge's source index names a row of the node table. -/
theorem src_in_range (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.KernelIdeal.Take.InRange (m ((c.tc : Thread Cert.KernelIdeal.nD Cert.KernelIdeal.τ).loc Cert.KernelIdeal.main_arg1)) :=
  fun e => Cert.Pre_finite_inputs.SrcRange.src_in_range _ _ _ _ _ _ _ (hpre c) e

/-- Both programs end with the two-layer term of the (agreeing) arguments. -/
theorem algebraic : Cert.algebraic_KernelIdeal_ReferenceIdeal := by
  intro m ρ m' ρ' hpre hagree
  refine ⟨fun c => Cert.KernelIdeal.Chain.value (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), ?_, ?_⟩
  · exact (θ_run Cert.KernelIdeal.defs _ _).mono (fun r h c => ⟨(h c).1.trans (Cert.KernelIdeal.Chain.result m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v29_eq, (hagree c).1, (hagree c).2.1, (hagree c).2.2.1, (hagree c).2.2.2.1,
      (hagree c).2.2.2.2.1, (hagree c).2.2.2.2.2.1, (hagree c).2.2.2.2.2.2]
    exact (Cert.KernelIdeal.Bridge.value_eq _ _ _ _ _ _ _ (src_in_range m hpre c)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
